-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S65536x2048 : Shape := ⟨2, ![65536, 2048]⟩
abbrev S64x2048 : Shape := ⟨2, ![64, 2048]⟩
abbrev S65536x64 : Shape := ⟨2, ![65536, 64]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S65536x64 : S_.BroadcastsInDim S65536x64 (![] : Fin 0 → Fin S65536x64.rank)
  reducesTo_S65536x64_S_d0_1 : S65536x64.ReducesTo [0, 1] S_

variable [Facts]

def fn_part1 {F : FTy → Type} [FloatOps F] (main_v13 : IVec S_ 1) (main_v16 : IVec S65536x64 1) : IVec S_ 1 :=
  let main_c_5 : IVec S_ 1 := constantI S_ 1 1#1
  let main_v17 : IVec S_ 1 := (fun x v => Host.reduce IntOp.andi x v reducesTo_S65536x64_S_d0_1 h_S_) main_v16 main_c_5
  let main_v18 : IVec S_ 1 := andi main_v13 main_v17
  main_v18

def fn {F : FTy → Type} [FloatOps F] (main_arg0 : FVec F S1x2048x2048 .f32) (main_arg1 : FVec F S65536x2048 .f32) (main_arg2 : FVec F S64x2048 .f32) (main_arg3 : FVec F S65536x64 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S65536x64 .f32 := Host.absf main_arg3
  let main_cst_4 : FVec F S_ .f32 := constant S_ .f32 0x7F800000#32
  let main_v15 : FVec F S65536x64 .f32 := broadcastInDim S65536x64 ![] bcast_S_S65536x64 main_cst_4
  let main_v16 : IVec S65536x64 1 := cmpf .olt main_v14 main_v15
  fn_part1 (F := F) main_v13 main_v16
-- ==== Kernel.lean ====
abbrev S1x2048x2048 : Shape := ⟨3, ![1, 2048, 2048]⟩
abbrev S65536x2048 : Shape := ⟨2, ![65536, 2048]⟩
abbrev S64x2048 : Shape := ⟨2, ![64, 2048]⟩
abbrev S65536x64 : Shape := ⟨2, ![65536, 64]⟩
abbrev S2048x2048 : Shape := ⟨2, ![2048, 2048]⟩
abbrev S2048x65536 : Shape := ⟨2, ![2048, 65536]⟩
abbrev S256x2048 : Shape := ⟨2, ![256, 2048]⟩
abbrev S1024x2048 : Shape := ⟨2, ![1024, 2048]⟩
abbrev S1024x64 : Shape := ⟨2, ![1024, 64]⟩
abbrev S256x1024 : Shape := ⟨2, ![256, 1024]⟩
abbrev S256x64 : Shape := ⟨2, ![256, 64]⟩
abbrev S1x2048x65536 : Shape := ⟨3, ![1, 2048, 65536]⟩

abbrev nBuf : Space → Nat
  | .hbm => 7
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S65536x2048, .f32⟩
  | .hbm, ⟨2, _⟩ => ⟨S64x2048, .f32⟩
  | .hbm, ⟨3, _⟩ => ⟨S65536x64, .f32⟩
  | .hbm, ⟨4, _⟩ => ⟨S2048x2048, .f32⟩
  | .hbm, ⟨5, _⟩ => ⟨S2048x65536, .f32⟩
  | .hbm, ⟨6, _⟩ => ⟨S1x2048x65536, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S1024x64, .f32⟩
  | .local _ .vmem, ⟨6, _⟩ => ⟨S1024x64, .f32⟩
  | .local _ .vmem, ⟨7, _⟩ => ⟨S256x1024, .f32⟩
  | .local _ .vmem, ⟨8, _⟩ => ⟨S256x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x2048x2048_S2048x2048 : S1x2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  inb_S1024x64_S1024x64_0_0 : ∀ a, (![0, 0] : Fin 2 → Nat) a + S1024x64.size a ≤ S1024x64.size a
  h_S1024x64 : 0 < S1024x64.numel
  inb_S256x1024_S256x1024_0_0 : ∀ a, (![0, 0] : Fin 2 → Nat) a + S256x1024.size a ≤ S256x1024.size a
  h_S256x1024 : 0 < S256x1024.numel
  shapeCasts_S2048x65536_S1x2048x65536 : S2048x65536.ShapeCasts S1x2048x65536
  dot_S256x2048_S1024x2048_S256x1024_1_1_0_0_n_n_wf : DotDims.WF S256x2048 S1024x2048 S256x1024 [1] [1] [0] [0] [] []
  dot_S256x2048_S64x2048_S256x64_1_1_0_0_n_n_wf : DotDims.WF S256x2048 S64x2048 S256x64 [1] [1] [0] [0] [] []
  dot_S256x64_S1024x64_S256x1024_1_1_0_0_n_n_wf : DotDims.WF S256x64 S1024x64 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S65536x64.size a
  hwx0_3 : ∀ i : grid0.Coords, EltTy.bits .f32 = 32 ∨ (Rect.block (s := S65536x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x65536.size a
  hwx0_4 : ∀ i : grid0.Coords, EltTy.bits .f32 = 32 ∨ (Rect.block (s := S2048x65536) S256x1024.size (cc0_transform_4 i) (hinb0_4 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x2048_S64x2048_S256x64_1_1_0_0_n_n : DotDims S256x2048 S64x2048 S256x64 where
  lhsContracting := [1]
  rhsContracting := [1]
  lhsNonContracting := [0]
  rhsNonContracting := [0]
  lhsBatch := []
  rhsBatch := []
  wf := dot_S256x2048_S64x2048_S256x64_1_1_0_0_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x2048 : Shape := ⟨3, ![1, 2048, 2048]⟩
abbrev S65536x2048 : Shape := ⟨2, ![65536, 2048]⟩
abbrev S64x2048 : Shape := ⟨2, ![64, 2048]⟩
abbrev S65536x64 : Shape := ⟨2, ![65536, 64]⟩
abbrev S1x2048x65536 : Shape := ⟨3, ![1, 2048, 65536]⟩
abbrev S1x2048x64 : Shape := ⟨3, ![1, 2048, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S65536x2048, .f32⟩
  | .hbm, ⟨2, _⟩ => ⟨S64x2048, .f32⟩
  | .hbm, ⟨3, _⟩ => ⟨S65536x64, .f32⟩
  | .hbm, ⟨4, _⟩ => ⟨S1x2048x65536, .f32⟩
  | .hbm, ⟨5, _⟩ => ⟨S1x2048x64, .f32⟩
  | .hbm, ⟨6, _⟩ => ⟨S1x2048x65536, .f32⟩
  | .hbm, ⟨7, _⟩ => ⟨S_, .f32⟩
  | .hbm, ⟨8, _⟩ => ⟨S1x2048x65536, .f32⟩
  | .hbm, ⟨9, _⟩ => ⟨S1x2048x65536, .f32⟩
  | .hbm, ⟨10, _⟩ => ⟨S1x2048x65536, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S1x2048x65536 : S_.BroadcastsInDim S1x2048x65536 (![] : Fin 0 → Fin S1x2048x65536.rank)
  dot_S1x2048x2048_S65536x2048_S1x2048x65536_2_1_01_0_n_n_wf : DotDims.WF S1x2048x2048 S65536x2048 S1x2048x65536 [2] [1] [0, 1] [0] [] []
  dot_S1x2048x2048_S64x2048_S1x2048x64_2_1_01_0_n_n_wf : DotDims.WF S1x2048x2048 S64x2048 S1x2048x64 [2] [1] [0, 1] [0] [] []
  dot_S1x2048x64_S65536x64_S1x2048x65536_2_1_01_0_n_n_wf : DotDims.WF S1x2048x64 S65536x64 S1x2048x65536 [2] [1] [0, 1] [0] [] []

variable [Facts₀]

def dot_S1x2048x2048_S65536x2048_S1x2048x65536_2_1_01_0_n_n : DotDims S1x2048x2048 S65536x2048 S1x2048x65536 where
  lhsContracting := [2]
  rhsContracting := [1]
  lhsNonContracting := [0, 1]
  rhsNonContracting := [0]
  lhsBatch := []
  rhsBatch := []
  wf := dot_S1x2048x2048_S65536x2048_S1x2048x65536_2_1_01_0_n_n_wf
def dot_S1x2048x2048_S64x2048_S1x2048x64_2_1_01_0_n_n : DotDims S1x2048x2048 S64x2048 S1x2048x64 where
  lhsContracting := [2]
  rhsContracting := [1]
  lhsNonContracting := [0, 1]
  rhsNonContracting := [0]
  lhsBatch := []
  rhsBatch := []
  wf := dot_S1x2048x2048_S64x2048_S1x2048x64_2_1_01_0_n_n_wf
def dot_S1x2048x64_S65536x64_S1x2048x65536_2_1_01_0_n_n : DotDims S1x2048x64 S65536x64 S1x2048x65536 where
  lhsContracting := [2]
  rhsContracting := [1]
  lhsNonContracting := [0, 1]
  rhsNonContracting := [0]
  lhsBatch := []
  rhsBatch := []
  wf := dot_S1x2048x64_S65536x64_S1x2048x65536_2_1_01_0_n_n_wf

class Facts : Prop extends Facts₀ where

variable [Facts]
-- ==== Proof.Spec.lean ====
/-
  The function both programs compute, stated once over the argument arrays as extended reals.

  A linear layer with a low-rank update. With the activations `x` (2048 tokens of 2048 features, carried with a leading
  batch axis of extent one), the base weights `w` (65536 output rows of 2048 features) and the two low-rank factors
  `a` (64 × 2048) and `b` (65536 × 64), the result at token `t` and output feature `v` is

      (Σ_k x[t,k]·w[v,k])  +  s · Σ_r (Σ_k x[t,k]·a[r,k]) · b[v,r]

  where `s` is the f32 word of 2.0 (alpha / rank). No law of the extended reals beyond the shape of this expression is
  used anywhere: the two programs compute it with the same grouping, and differ only in how the arrays are laid out
  (a flat [2048, 2048] view of the activations, blocks of rows and columns) and in where the sums are taken.
-/
import Idealize.ShloMosaic.PureOps.Ideal
import Idealize.ShloMosaic.Lib.ValueIdx
import Idealize.ShloMosaic.Lib.ValueLayout

noncomputable section

open scoped BigOperators

namespace Cert.LoraLinear

open Idealize.ShloMosaic Idealize.ShloMosaic.ValueIdx

/-- The low-rank branch's scale, the f32 word of 2.0 read at the ideal instance. It is never evaluated: both programs
    carry the same word. -/
abbrev scale : EReal := Ideal.ofBits .f32 0x40000000#32

/-- The result over the FLAT activations [2048, 2048], at row `t` and column `v`: the form the kernel's region leaves
    in its [2048, 65536] output array. -/
def flat (x : (⟨2, ![2048, 2048]⟩ : Shape).Idx → EReal) (w : (⟨2, ![65536, 2048]⟩ : Shape).Idx → EReal)
    (a : (⟨2, ![64, 2048]⟩ : Shape).Idx → EReal) (b : (⟨2, ![65536, 64]⟩ : Shape).Idx → EReal) :
    (⟨2, ![2048, 65536]⟩ : Shape).Idx → EReal := fun i =>
  (∑ k : Fin 2048, x (ix2 (i 0) k) * w (ix2 (i 1) k))
    + scale * ∑ r : Fin 64, (∑ k : Fin 2048, x (ix2 (i 0) k) * a (ix2 r k)) * b (ix2 (i 1) r)

/-- The result over the activations with their batch axis, [1, 2048, 2048], at (batch, token, output feature): the form
    of the program's result [1, 2048, 65536]. -/
def batched (x : (⟨3, ![1, 2048, 2048]⟩ : Shape).Idx → EReal) (w : (⟨2, ![65536, 2048]⟩ : Shape).Idx → EReal)
    (a : (⟨2, ![64, 2048]⟩ : Shape).Idx → EReal) (b : (⟨2, ![65536, 64]⟩ : Shape).Idx → EReal) :
    (⟨3, ![1, 2048, 65536]⟩ : Shape).Idx → EReal := fun i =>
  (∑ k : Fin 2048, x (ix3 (i 0) (i 1) k) * w (ix2 (i 2) k))
    + scale * ∑ r : Fin 64, (∑ k : Fin 2048, x (ix3 (i 0) (i 1) k) * a (ix2 r k)) * b (ix2 (i 2) r)

/-- Dropping the batch axis of the activations, computing the flat result and putting the batch axis back is the batched
    result: a [1, a, b] array and its [a, b] view hold the same entries, the batch coordinate being 0. -/
theorem cast_flat_cast (x : (⟨3, ![1, 2048, 2048]⟩ : Shape).Idx → EReal) (w : (⟨2, ![65536, 2048]⟩ : Shape).Idx → EReal)
    (a : (⟨2, ![64, 2048]⟩ : Shape).Idx → EReal) (b : (⟨2, ![65536, 64]⟩ : Shape).Idx → EReal)
    (hin : (⟨3, ![1, 2048, 2048]⟩ : Shape).ShapeCasts ⟨2, ![2048, 2048]⟩)
    (hout : (⟨2, ![2048, 65536]⟩ : Shape).ShapeCasts ⟨3, ![1, 2048, 65536]⟩) :
    shapeCast ⟨3, ![1, 2048, 65536]⟩ (flat (shapeCast ⟨2, ![2048, 2048]⟩ x hin) w a b) hout = batched x w a b := by
  funext i
  obtain ⟨u, t, v, rfl⟩ : ∃ (u : Fin 1) (t : Fin 2048) (v : Fin 65536), i = ix3 u t v := ⟨i 0, i 1, i 2, eq_ix3 i⟩
  rw [shapeCast_ab_1ab_apply]
  have hu : u = 0 := Subsingleton.elim _ _
  subst hu
  unfold flat batched
  simp only [shapeCast_1ab_ab_apply]

end Cert.LoraLinear

end
-- ==== Proof.RefSide.lean ====
/-
  The reference, read index by index: its result at (batch, token, output feature) is the batched low-rank linear
  function of its four arguments.

  The reference takes three contractions on the host — the activations against the base weights, the activations
  against the first low-rank factor, and that product against the second factor — then scales the last by 2.0 and adds.
  Each contraction at the ideal instance is a plain sum over its one contracted axis, so the result at an index is the
  specification's expression with every operand index written by its coordinates.
-/
import proofs.«174325_j48421461295878_1_alg».proof.Proof.Gen.ReferenceIdeal.Read
import proofs.«174325_j48421461295878_1_alg».proof.Proof.Spec

noncomputable section

open scoped BigOperators

namespace Cert.ReferenceIdeal.RefValue

open Cert.ReferenceIdeal Cert.ReferenceIdeal.Read Idealize.ShloMosaic Idealize.ShloMosaic.ValueIdx

/-- The operand indices of the three contractions, by coordinates: the left operand keeps the batch and token
    coordinates and takes the contracted one last; the right operand takes the output (or rank) coordinate first. -/
theorem lidx0 (i : S1x2048x65536.Idx) (k : Fin 2048) : lidx_main_v0 i k = ix3 (i 0) (i 1) k :=
  funext fun d => by match d with | ⟨0, _⟩ => rfl | ⟨1, _⟩ => rfl | ⟨2, _⟩ => rfl
theorem ridx0 (i : S1x2048x65536.Idx) (k : Fin 2048) : ridx_main_v0 i k = ix2 (i 2) k :=
  funext fun d => by match d with | ⟨0, _⟩ => rfl | ⟨1, _⟩ => rfl
/-- The second contraction's operands, reached through the third's left index: token row of the activations, rank row of
    the first factor. -/
theorem lidx12 (i : S1x2048x65536.Idx) (r : Fin 64) (k : Fin 2048) : lidx_main_v1 (lidx_main_v2 i r) k = ix3 (i 0) (i 1) k :=
  funext fun d => by match d with | ⟨0, _⟩ => rfl | ⟨1, _⟩ => rfl | ⟨2, _⟩ => rfl
theorem ridx12 (i : S1x2048x65536.Idx) (r : Fin 64) (k : Fin 2048) : ridx_main_v1 (lidx_main_v2 i r) k = ix2 r k :=
  funext fun d => by match d with | ⟨0, _⟩ => rfl | ⟨1, _⟩ => rfl
theorem ridx2 (i : S1x2048x65536.Idx) (r : Fin 64) : ridx_main_v2 i r = ix2 (i 2) r :=
  funext fun d => by match d with | ⟨0, _⟩ => rfl | ⟨1, _⟩ => rfl

/-- The reference's last stage is the batched specification of its arguments. -/
theorem result_eq (x : (⟨S1x2048x2048, .f32⟩ : BufTy).Contents (Elt Ideal)) (w : (⟨S65536x2048, .f32⟩ : BufTy).Contents (Elt Ideal))
    (a : (⟨S64x2048, .f32⟩ : BufTy).Contents (Elt Ideal)) (b : (⟨S65536x64, .f32⟩ : BufTy).Contents (Elt Ideal)) :
    val_main_v5 (F := Ideal) x w a b = Cert.LoraLinear.batched x w a b := by
  funext i
  rw [val_main_v5_apply, val_main_v0_apply, val_main_v4_apply, val_main_v3_apply, val_main_cst_apply, val_main_v2_apply]
  simp only [val_main_v1_apply, lidx12, ridx12]
  simp only [lidx0, ridx0, ridx2]
  rfl

end Cert.ReferenceIdeal.RefValue

end
-- ==== Proof.Block.lean ====
/-
  One grid point's arithmetic, read at an entry of the output block.

  The body multiplies a [256, 2048] block of activations against a [1024, 2048] block of base weights and, through the
  [64, 2048] first factor and a [1024, 64] block of the second, forms the low-rank update; every operand is narrowed to
  bf16 first, which at the ideal instance changes nothing, and each product accumulates into a zero splat, so each is a
  plain sum over its contracted axis. At row `p` and column `q` of the [256, 1024] output block the body therefore
  leaves  (Σ_k x[p,k]·w[q,k]) + s · Σ_r (Σ_k x[p,k]·a[r,k]) · b[q,r],  the specification's expression on the blocks.
-/
import proofs.«174325_j48421461295878_1_alg».proof.Proof.Gen.KernelIdeal.Skeleton
import proofs.«174325_j48421461295878_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-! ## The three products' operand indices, axis by axis

Each product contracts the LAST axis of both operands (the right operand is stored [rows, features]): the left operand is
read at (output row, k), the right at (output column, k). -/

theorem lhs_base_0 (j : S256x1024.Idx) (q : dot_S256x2048_S1024x2048_S256x1024_1_1_0_0_n_n.contr.Idx) :
    (dot_S256x2048_S1024x2048_S256x1024_1_1_0_0_n_n.lhsIdx j q 0).val = (j 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs_base_1 (j : S256x1024.Idx) (q : dot_S256x2048_S1024x2048_S256x1024_1_1_0_0_n_n.contr.Idx) :
    (dot_S256x2048_S1024x2048_S256x1024_1_1_0_0_n_n.lhsIdx j q 1).val = (q ⟨0, by decide⟩).val :=
  dot_S256x2048_S1024x2048_S256x1024_1_1_0_0_n_n.lhsIdx_val_of_single rfl j q
theorem rhs_base_0 (j : S256x1024.Idx) (q : dot_S256x2048_S1024x2048_S256x1024_1_1_0_0_n_n.contr.Idx) :
    (dot_S256x2048_S1024x2048_S256x1024_1_1_0_0_n_n.rhsIdx j q 0).val = (j 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs_base_1 (j : S256x1024.Idx) (q : dot_S256x2048_S1024x2048_S256x1024_1_1_0_0_n_n.contr.Idx) :
    (dot_S256x2048_S1024x2048_S256x1024_1_1_0_0_n_n.rhsIdx j q 1).val = (q ⟨0, by decide⟩).val :=
  dot_S256x2048_S1024x2048_S256x1024_1_1_0_0_n_n.rhsIdx_val_of_single rfl j q

theorem lhs_low_0 (j : S256x64.Idx) (q : dot_S256x2048_S64x2048_S256x64_1_1_0_0_n_n.contr.Idx) :
    (dot_S256x2048_S64x2048_S256x64_1_1_0_0_n_n.lhsIdx j q 0).val = (j 0).val := by
  unfold DotDims.lhsIdx
  rw [dif_neg (show ¬(0 : Fin S256x2048.rank) ∈ dot_S256x2048_S64x2048_S256x64_1_1_0_0_n_n.lhsBatch by decide), dif_pos (show (0 : Fin S256x2048.rank) ∈ dot_S256x2048_S64x2048_S256x64_1_1_0_0_n_n.lhsNonContracting by decide)]
  rfl
theorem lhs_low_1 (j : S256x64.Idx) (q : dot_S256x2048_S64x2048_S256x64_1_1_0_0_n_n.contr.Idx) :
    (dot_S256x2048_S64x2048_S256x64_1_1_0_0_n_n.lhsIdx j q 1).val = (q ⟨0, by decide⟩).val :=
  dot_S256x2048_S64x2048_S256x64_1_1_0_0_n_n.lhsIdx_val_of_single rfl j q
theorem rhs_low_0 (j : S256x64.Idx) (q : dot_S256x2048_S64x2048_S256x64_1_1_0_0_n_n.contr.Idx) :
    (dot_S256x2048_S64x2048_S256x64_1_1_0_0_n_n.rhsIdx j q 0).val = (j 1).val := by
  unfold DotDims.rhsIdx
  rw [dif_neg (show ¬(0 : Fin S64x2048.rank) ∈ dot_S256x2048_S64x2048_S256x64_1_1_0_0_n_n.rhsBatch by decide), dif_pos (show (0 : Fin S64x2048.rank) ∈ dot_S256x2048_S64x2048_S256x64_1_1_0_0_n_n.rhsNonContracting by decide)]
  rfl
theorem rhs_low_1 (j : S256x64.Idx) (q : dot_S256x2048_S64x2048_S256x64_1_1_0_0_n_n.contr.Idx) :
    (dot_S256x2048_S64x2048_S256x64_1_1_0_0_n_n.rhsIdx j q 1).val = (q ⟨0, by decide⟩).val :=
  dot_S256x2048_S64x2048_S256x64_1_1_0_0_n_n.rhsIdx_val_of_single rfl j q

theorem lhs_up_0 (j : S256x1024.Idx) (q : dot_S256x64_S1024x64_S256x1024_1_1_0_0_n_n.contr.Idx) :
    (dot_S256x64_S1024x64_S256x1024_1_1_0_0_n_n.lhsIdx j q 0).val = (j 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem lhs_up_1 (j : S256x1024.Idx) (q : dot_S256x64_S1024x64_S256x1024_1_1_0_0_n_n.contr.Idx) :
    (dot_S256x64_S1024x64_S256x1024_1_1_0_0_n_n.lhsIdx j q 1).val = (q ⟨0, by decide⟩).val :=
  dot_S256x64_S1024x64_S256x1024_1_1_0_0_n_n.lhsIdx_val_of_single rfl j q
theorem rhs_up_0 (j : S256x1024.Idx) (q : dot_S256x64_S1024x64_S256x1024_1_1_0_0_n_n.contr.Idx) :
    (dot_S256x64_S1024x64_S256x1024_1_1_0_0_n_n.rhsIdx j q 0).val = (j 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem rhs_up_1 (j : S256x1024.Idx) (q : dot_S256x64_S1024x64_S256x1024_1_1_0_0_n_n.contr.Idx) :
    (dot_S256x64_S1024x64_S256x1024_1_1_0_0_n_n.rhsIdx j q 1).val = (q ⟨0, by decide⟩).val :=
  dot_S256x64_S1024x64_S256x1024_1_1_0_0_n_n.rhsIdx_val_of_single rfl j q

/-! ## Each product into a zero accumulator is a sum over its contracted axis -/

/-- Activations against base weights: entry (p, q) is the sum over the 2048 features. -/
theorem matmul_base_apply (l : FVec Ideal S256x2048 .bf16) (r : FVec Ideal S1024x2048 .bf16) (j : S256x1024.Idx) :
    matmul dot_S256x2048_S1024x2048_S256x1024_1_1_0_0_n_n none l r (constant S256x1024 .f32 0x00000000#32) j
      = ∑ k : Fin 2048, l (ix2 (j 0) k) * r (ix2 (j 1) k) := by
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx j ((contrEquiv1 dot_S256x2048_S1024x2048_S256x1024_1_1_0_0_n_n 2048 rfl rfl).symm k) = ix2 (j 0) k := funext fun a => Fin.ext (by
    match a with
    | ⟨0, _⟩ => exact lhs_base_0 _ _
    | ⟨1, _⟩ => exact (lhs_base_1 _ _).trans hk)
  have er : dot_S256x2048_S1024x2048_S256x1024_1_1_0_0_n_n.rhsIdx j ((contrEquiv1 dot_S256x2048_S1024x2048_S256x1024_1_1_0_0_n_n 2048 rfl rfl).symm k) = ix2 (j 1) k := funext fun a => Fin.ext (by
    match a with
    | ⟨0, _⟩ => exact rhs_base_0 _ _
    | ⟨1, _⟩ => exact (rhs_base_1 _ _).trans hk)
  rw [el, er]
  rfl

/-- Activations against the first low-rank factor: entry (p, r) is the sum over the 2048 features. -/
theorem matmul_low_apply (l : FVec Ideal S256x2048 .bf16) (r : FVec Ideal S64x2048 .bf16) (j : S256x64.Idx) :
    matmul dot_S256x2048_S64x2048_S256x64_1_1_0_0_n_n none l r (constant S256x64 .f32 0x00000000#32) j
      = ∑ k : Fin 2048, l (ix2 (j 0) k) * r (ix2 (j 1) k) := by
  simp only [matmul]
  rw [Ideal.matmul_constant_zero_apply, ← Equiv.sum_comp (contrEquiv1 dot_S256x2048_S64x2048_S256x64_1_1_0_0_n_n 2048 rfl rfl).symm]
  refine Finset.sum_congr rfl fun k _ => ?_
  have hk := contrEquiv1_symm_val dot_S256x2048_S64x2048_S256x64_1_1_0_0_n_n 2048 rfl rfl k
  have el : dot_S256x2048_S64x2048_S256x64_1_1_0_0_n_n.lhsIdx j ((contrEquiv1 dot_S256x2048_S64x2048_S256x64_1_1_0_0_n_n 2048 rfl rfl).symm k) = ix2 (j 0) k := funext fun a => Fin.ext (by
    match a with
    | ⟨0, _⟩ => exact lhs_low_0 _ _
    | ⟨1, _⟩ => exact (lhs_low_1 _ _).trans hk)
  have er : dot_S256x2048_S64x2048_S256x64_1_1_0_0_n_n.rhsIdx j ((contrEquiv1 dot_S256x2048_S64x2048_S256x64_1_1_0_0_n_n 2048 rfl rfl).symm k) = ix2 (j 1) k := funext fun a => Fin.ext (by
    match a with
    | ⟨0, _⟩ => exact rhs_low_0 _ _
    | ⟨1, _⟩ => exact (rhs_low_1 _ _).trans hk)
  rw [el, er]
  rfl

/-- The low-rank activations against the second factor: entry (p, q) is the sum over the 64 ranks. -/
theorem matmul_up_apply (l : FVec Ideal S256x64 .bf16) (r : FVec Ideal S1024x64 .bf16) (j : S256x1024.Idx) :
    matmul dot_S256x64_S1024x64_S256x1024_1_1_0_0_n_n none l r (constant S256x1024 .f32 0x00000000#32) j
      = ∑ k : Fin 64, l (ix2 (j 0) k) * r (ix2 (j 1) k) := by
  simp only [matmul]
  rw [Ideal.matmul_constant_zero_apply, ← Equiv.sum_comp (contrEquiv1 dot_S256x64_S1024x64_S256x1024_1_1_0_0_n_n 64 rfl rfl).symm]
  refine Finset.sum_congr rfl fun k _ => ?_
  have hk := contrEquiv1_symm_val dot_S256x64_S1024x64_S256x1024_1_1_0_0_n_n 64 rfl rfl k
  have el : dot_S256x64_S1024x64_S256x1024_1_1_0_0_n_n.lhsIdx j ((contrEquiv1 dot_S256x64_S1024x64_S256x1024_1_1_0_0_n_n 64 rfl rfl).symm k) = ix2 (j 0) k := funext fun a => Fin.ext (by
    match a with
    | ⟨0, _⟩ => exact lhs_up_0 _ _
    | ⟨1, _⟩ => exact (lhs_up_1 _ _).trans hk)
  have er : dot_S256x64_S1024x64_S256x1024_1_1_0_0_n_n.rhsIdx j ((contrEquiv1 dot_S256x64_S1024x64_S256x1024_1_1_0_0_n_n 64 rfl rfl).symm k) = ix2 (j 1) k := funext fun a => Fin.ext (by
    match a with
    | ⟨0, _⟩ => exact rhs_up_0 _ _
    | ⟨1, _⟩ => exact (rhs_up_1 _ _).trans hk)
  rw [el, er]
  rfl

/-! ## The stored value at an entry -/

/-- What the body stores, at row `p` and column `q` of the output block, from the four loaded blocks. -/
theorem stored_apply (x : Vec Ideal S256x2048 .f32) (w : Vec Ideal S1024x2048 .f32) (a : Vec Ideal S64x2048 .f32)
    (b : Vec Ideal S1024x64 .f32) (p : Fin 256) (q : Fin 1024) :
    k0_pay1 (F := Ideal) x w a b (ix2 p q)
      = (∑ k : Fin 2048, x (ix2 p k) * w (ix2 q k))
        + Cert.LoraLinear.scale * ∑ r : Fin 64, (∑ k : Fin 2048, x (ix2 p k) * a (ix2 r k)) * b (ix2 q r) := by
  unfold k0_pay1
  rw [addf_apply, mulf_apply, broadcast_apply, matmul_base_apply, matmul_up_apply]
  simp only [truncf_apply, matmul_low_apply, shapeCast_self]
  rfl

/-- The stored entry is the flat specification of four whole arrays at an index `i`, as soon as the loaded blocks hold
    those arrays' entries where `i` says: row `i 0` of the activations, row `i 1` of the base weights and of the second
    factor, and the first factor whole. -/
theorem stored_eq_flat (X : (⟨2, ![2048, 2048]⟩ : Shape).Idx → EReal) (W : (⟨2, ![65536, 2048]⟩ : Shape).Idx → EReal)
    (A : (⟨2, ![64, 2048]⟩ : Shape).Idx → EReal) (B : (⟨2, ![65536, 64]⟩ : Shape).Idx → EReal)
    (x : Vec Ideal S256x2048 .f32) (w : Vec Ideal S1024x2048 .f32) (a : Vec Ideal S64x2048 .f32) (b : Vec Ideal S1024x64 .f32)
    (p : Fin 256) (q : Fin 1024) (i : (⟨2, ![2048, 65536]⟩ : Shape).Idx)
    (hx : ∀ k : Fin 2048, x (ix2 p k) = X (ix2 (i 0) k)) (hw : ∀ k : Fin 2048, w (ix2 q k) = W (ix2 (i 1) k))
    (ha : ∀ (r : Fin 64) (k : Fin 2048), a (ix2 r k) = A (ix2 r k)) (hb : ∀ r : Fin 64, b (ix2 q r) = B (ix2 (i 1) r)) :
    k0_pay1 (F := Ideal) x w a b (ix2 p q) = Cert.LoraLinear.flat X W A B i := by
  rw [stored_apply]
  unfold Cert.LoraLinear.flat
  simp only [hx, hw, ha, hb]

end Cert.KernelIdeal.BlockValue

end
-- ==== Proof.Region.lean ====
/-
  From the blocks to the array: what the region leaves in its [2048, 65536] output.

  The grid has 64 × 8 points, the column tile outermost. Point `t` works on row tile `t mod 8` (256 rows) and column tile
  `t / 8` (1024 columns): it reads rows of the flat activations from row tile `t mod 8`, rows of the base weights and of the
  second low-rank factor from tile `t / 8`, the first factor whole, and writes output block (t mod 8, t / 8). The entry
  it leaves at (p, q) of that block is the flat specification at (256·(t mod 8) + p, 1024·(t / 8) + q), so every point
  writes back its block of ONE function of the arrays; the 512 blocks tile the output, so the output ends holding that
  function everywhere.
-/
import proofs.«174325_j48421461295878_1_alg».proof.Proof.Gen.KernelIdeal.Frame
import proofs.«174325_j48421461295878_1_alg».proof.Proof.Block
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem offset_zero : (![0, 0] : Fin 2 → Nat) = fun _ => 0 := funext fun a => by fin_cases a <;> rfl

/-- The flat specification of the four arrays as the region finds them. -/
abbrev regionOut (c : Dev nD) : S2048x65536.Idx → EReal :=
  Cert.LoraLinear.flat (V m c main_v0) (V m c main_arg1) (V m c main_arg2) (V m c main_arg3)

/-- The block indices at point `t`, decided once over the 512 points: the output block is (t mod 8, t / 8); the
    activations follow its row tile, the base weights and the second factor its column tile, all from column block 0;
    the first factor is one block. -/
theorem tiles : ∀ t : Fin cfg0.N,
    win0_4.index t (0 : Fin 2) = t.val % 8 ∧ win0_4.index t (1 : Fin 2) = t.val / 8
    ∧ win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- WHAT POINT `t` WRITES BACK is its block of `regionOut`. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero offset_zero]
  simp only [View.ld_unit_zero (S := S256x2048) offset_zero, View.ld_unit_zero (S := S1024x2048) offset_zero,
    View.ld_unit_zero (S := S64x2048) offset_zero, View.ld_unit_zero (S := S1024x64) offset_zero]
  obtain ⟨e40, e41, e00, e01, e10, e11, e20, e21, e30, e31⟩ := tiles t
  funext j
  obtain ⟨p, q, rfl⟩ : ∃ (p : Fin 256) (q : Fin 1024), j = ix2 p q := ⟨j 0, j 1, eq_ix2 j⟩
  refine Cert.KernelIdeal.BlockValue.stored_eq_flat (V m c main_v0) (V m c main_arg1) (V m c main_arg2) (V m c main_arg3)
    (iblk m c 0 t) (iblk m c 1 t) (iblk m c 2 t) (iblk m c 3 t) p q (((cfg0.win 4).blk t).view.emb (ix2 p q)) ?_ ?_ ?_ ?_
  · intro k
    show V m c main_v0 (((cfg0.win 0).blk t).view.emb (ix2 p k)) = _
    refine congrArg (V m c main_v0) (funext fun a => Fin.ext ?_)
    match a with
    | ⟨0, _⟩ => show win0_0.index t (0 : Fin 2) * 256 + 1 * p.val = win0_4.index t (0 : Fin 2) * 256 + 1 * p.val; rw [e00, e40]
    | ⟨1, _⟩ => show win0_0.index t (1 : Fin 2) * 2048 + 1 * k.val = k.val; rw [e01]; omega
  · intro k
    show V m c main_arg1 (((cfg0.win 1).blk t).view.emb (ix2 q k)) = _
    refine congrArg (V m c main_arg1) (funext fun a => Fin.ext ?_)
    match a with
    | ⟨0, _⟩ => show win0_1.index t (0 : Fin 2) * 1024 + 1 * q.val = win0_4.index t (1 : Fin 2) * 1024 + 1 * q.val; rw [e10, e41]
    | ⟨1, _⟩ => show win0_1.index t (1 : Fin 2) * 2048 + 1 * k.val = k.val; rw [e11]; omega
  · intro r k
    show V m c main_arg2 (((cfg0.win 2).blk t).view.emb (ix2 r k)) = _
    refine congrArg (V m c main_arg2) (funext fun a => Fin.ext ?_)
    match a with
    | ⟨0, _⟩ => show win0_2.index t (0 : Fin 2) * 64 + 1 * r.val = r.val; rw [e20]; omega
    | ⟨1, _⟩ => show win0_2.index t (1 : Fin 2) * 2048 + 1 * k.val = k.val; rw [e21]; omega
  · intro r
    show V m c main_arg3 (((cfg0.win 3).blk t).view.emb (ix2 q r)) = _
    refine congrArg (V m c main_arg3) (funext fun a => Fin.ext ?_)
    match a with
    | ⟨0, _⟩ => show win0_3.index t (0 : Fin 2) * 1024 + 1 * q.val = win0_4.index t (1 : Fin 2) * 1024 + 1 * q.val; rw [e30, e41]
    | ⟨1, _⟩ => show win0_3.index t (1 : Fin 2) * 64 + 1 * r.val = r.val; rw [e31]; omega

/-- An index of the output array is in point `t`'s block iff each coordinate is in the block's range on its axis. -/
theorem mem_block (t : Fin cfg0.N) (i : S2048x65536.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v1).slice (win0_4.rect t)).set ↔ _
  rw [View.set_slice_whole, Rect.mem_set_unit]
  exact Iff.rfl

/-- The blocks tile the output: the entry at row `i 0`, column `i 1` lies in the block of point
    8·(i 1 / 1024) + i 0 / 256. -/
theorem covered (i : S2048x65536.Idx) :
    ∃ t : Fin cfg0.N, (cfg0.win 4).flush t = true ∧ i ∈ ((cfg0.win 4).blk t).view.set := by
  have hi0 : (i 0).val < 2048 := (i 0).isLt
  have hi1 : (i 1).val < 65536 := (i 1).isLt
  obtain ⟨t, ht⟩ : ∃ t : Fin cfg0.N, t.val = (i 1).val / 1024 * 8 + (i 0).val / 256 :=
    ⟨⟨(i 1).val / 1024 * 8 + (i 0).val / 256, by show _ < grid0.N; rw [N_0]; omega⟩, rfl⟩
  obtain ⟨e40, e41, -⟩ := tiles t
  refine ⟨t, flush0_4 t, ?_⟩
  rw [mem_block]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 1024 ≤ (i 1).val ∧ (i 1).val < win0_4.index t (1 : Fin 2) * 1024 + 1024
    rw [e41, ht]; omega

/-- THE OUTPUT ARRAY after the region: the flat specification of the arrays the region found. -/
theorem region_final (c : Dev nD) : (dats m 0 c).arrAt 4 cfg0.N = regionOut m c :=
  (dats m 0 c).arrAt_eq_of_cover 4 (regionOut m c) (fun t _ => flushed_eq m c t) (covered)

end Cert.KernelIdeal.RegionValue

end
-- ==== Proof.Program.lean ====
/-
  The whole program: flatten the activations, run the region, put the batch axis back.

  Before the region the host drops the activations' batch axis of extent one ([1, 2048, 2048] to [2048, 2048]); after it
  the host adds a batch axis to the region's [2048, 65536] output. Neither moves an entry, so the program's result is the
  batched low-rank linear function of the four arguments as launched.
-/
import proofs.«174325_j48421461295878_1_alg».proof.Proof.Region

set_option maxRecDepth 16384

noncomputable section

open scoped BigOperators

namespace Cert.KernelIdeal.ProgramValue

open Cert.KernelIdeal Cert.KernelIdeal.Gen Cert.KernelIdeal.RegionValue
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The flat activations the region reads are the launched activations with the batch axis dropped. -/
theorem flat_activations (c : Dev nD) :
    (V m c main_v0 : S2048x2048.Idx → EReal)
      = shapeCast S2048x2048 (m ((c : Thread nD τ).loc main_arg0)) shapeCasts_S1x2048x2048_S2048x2048 := by
  show StableHlo.after hostOps0 (fun b => m (c, b)) (Proc.devRef .tc main_v0) = _
  after_results
  rfl

/-- The region's output in terms of the launched arguments. -/
theorem regionOut_eq (c : Dev nD) :
    regionOut m c = Cert.LoraLinear.flat
      (shapeCast S2048x2048 (m ((c : Thread nD τ).loc main_arg0)) shapeCasts_S1x2048x2048_S2048x2048)
      (m ((c : Thread nD τ).loc main_arg1)) (m ((c : Thread nD τ).loc main_arg2)) (m ((c : Thread nD τ).loc main_arg3)) := by
  unfold regionOut
  rw [flat_activations m c, V_main_arg1 m c, V_main_arg2 m c, V_main_arg3 m c]

/-- THE PROGRAM'S RESULT after the host line that follows the region: the batched specification of the launched
    arguments. -/
theorem result_eq (c : Dev nD) :
    (Pipeline.afterTail₀ cfgs (dats m) 0 (V0 m) [hostOps1] c main_v2 : S1x2048x65536.Idx → EReal)
      = Cert.LoraLinear.batched (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  rw [(Pipeline.withArrays_arr spec0 launch0.win.arr_inj c _ _ 4).trans (region_final m c), regionOut_eq m c]
  exact Cert.LoraLinear.cast_flat_cast _ _ _ _ _ _

/-- The run, read: every weakly fair execution terminates with the result at the batched specification of the launched
    arguments, and the arguments as launched. -/
theorem run : θ_run defs (onTc (τ := τ) (main (F := Ideal))) ⟨m, fun _ => 0, ρ⟩ fun r => ∀ c : Dev nD,
      r.2.mem ((c.tc : Thread nD τ).loc main_v2)
        = Cert.LoraLinear.batched (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.ProgramValue

end
-- ==== Proof.lean ====
/-
  A linear layer with a low-rank update, computed block by block on the TensorCore, against the same function written
  with three host contractions.

  Both programs compute, at token `t` and output feature `v`,
      (Σ_k x[t,k]·w[v,k]) + 2 · Σ_r (Σ_k x[t,k]·a[r,k]) · b[v,r]
  with the same grouping of the sums, so over the extended reals they agree entry by entry with no condition on the
  inputs. The kernel's narrowing of its operands to bf16 is the identity at the ideal instance, each of its three
  products accumulates into a zero splat and is a plain sum, and its 512 output blocks tile the result; the reference's
  contractions are the same sums read through the batch axis of extent one.
-/
import proofs.«174325_j48421461295878_1_alg».proof.Defs
import proofs.«174325_j48421461295878_1_alg».proof.Proof.Gen.Kernel
import proofs.«174325_j48421461295878_1_alg».proof.Proof.Gen.Kernel.Frame
import proofs.«174325_j48421461295878_1_alg».proof.Proof.Gen.KernelIdeal
import proofs.«174325_j48421461295878_1_alg».proof.Proof.Gen.KernelIdeal.Frame
import proofs.«174325_j48421461295878_1_alg».proof.Proof.Gen.ReferenceIdeal
import proofs.«174325_j48421461295878_1_alg».proof.Proof.Gen.ReferenceIdeal.Run
import proofs.«174325_j48421461295878_1_alg».proof.Proof.Gen.ReferenceIdeal.Read
import proofs.«174325_j48421461295878_1_alg».proof.Proof.Gen.Pre_finite_inputs
import proofs.«174325_j48421461295878_1_alg».proof.Proof.RefSide
import proofs.«174325_j48421461295878_1_alg».proof.Proof.Program
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the batched low-rank linear function of the arguments they agree on. -/
theorem algebraic : Cert.algebraic_KernelIdeal_ReferenceIdeal := by
  intro m ρ m' ρ' _ hagree
  refine ⟨fun c => Cert.LoraLinear.batched (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
